-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1600000 : Shape := ⟨1, ![1600000]⟩
abbrev S400000 : Shape := ⟨1, ![400000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x256 .f32) (main_arg5 : FVec F S128 .f32) (main_arg6 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S500000x128 .f32) (main_arg1 : FVec F S256x128 .f32) (main_arg2 : FVec F S256 .f32) (main_arg3 : FVec F S256x128 .f32) (main_arg4 : FVec F S128x256 .f32) (main_arg5 : FVec F S128 .f32) (main_arg6 : FVec F S128x256 .f32) (main_arg7 : IVec S1600000 32) (main_arg8 : IVec S1600000 32) (main_arg9 : IVec S400000 32) (main_arg10 : IVec S400000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S500000x128 : Shape := ⟨2, ![500000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1600000 : Shape := ⟨1, ![1600000]⟩
abbrev S400000 : Shape := ⟨1, ![400000]⟩
abbrev S_ : Shape := ⟨0, ![]⟩
abbrev S1600000x1 : Shape := ⟨2, ![1600000, 1]⟩
abbrev S1600000x128 : Shape := ⟨2, ![1600000, 128]⟩
abbrev S100000x128 : Shape := ⟨2, ![100000, 128]⟩
abbrev S100000 : Shape := ⟨1, ![100000]⟩
abbrev S100000x1 : Shape := ⟨2, ![100000, 1]⟩
abbrev S100000x256 : Shape := ⟨2, ![100000, 256]⟩
abbrev S2000x128 : Shape := ⟨2, ![2000, 128]⟩
abbrev S2000x256 : Shape := ⟨2, ![2000, 256]⟩
abbrev S1x256 : Shape := ⟨2, ![1, 256]⟩
abbrev S400000x1 : Shape := ⟨2, ![400000, 1]⟩
abbrev S400000x256 : Shape := ⟨2, ![400000, 256]⟩
abbrev S25000x256 : Shape := ⟨2, ![25000, 256]⟩
abbrev S25000 : Shape := ⟨1, ![25000]⟩
abbrev S25000x1 : Shape := ⟨2, ![25000, 1]⟩
abbrev S25000x128 : Shape := ⟨2, ![25000, 128]⟩
abbrev S5000x256 : Shape := ⟨2, ![5000, 256]⟩
abbrev S5000x128 : Shape := ⟨2, ![5000, 128]⟩
abbrev S1x128 : Shape := ⟨2, ![1, 128]⟩

abbrev nBuf : Space → Nat
  | .hbm => 71
  | .vmem => 18
  | .smem => 0
  | _ => 0

abbrev bufTy : (tb : Table) → Fin (tcTables nBuf tb) → BufTy
  | .hbm, ⟨0, _⟩ => ⟨S500000x128, .f32⟩
  | .hbm, ⟨1, _⟩ => ⟨S256x128, .f32⟩
  | .hbm, ⟨2, _⟩ => ⟨S256, .f32⟩
  | .hbm, ⟨3, _⟩ => ⟨S256x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S1600000, .i32⟩
  | .hbm, ⟨8, _⟩ => ⟨S1600000, .i32⟩
  | .hbm, ⟨9, _⟩ => ⟨S400000, .i32⟩
  | .hbm, ⟨10, _⟩ => ⟨S400000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S128x256, .f32⟩
  | .hbm, ⟨39, _⟩ => ⟨S128x256, .f32⟩
  | .hbm, ⟨40, _⟩ => ⟨S100000x256, .f32⟩
  | .hbm, ⟨41, _⟩ => ⟨S_, .i32⟩
  | .hbm, ⟨42, _⟩ => ⟨S400000, .i32⟩
  | .hbm, ⟨43, _⟩ => ⟨S400000, .i1⟩
  | .hbm, ⟨44, _⟩ => ⟨S_, .i32⟩
  | .hbm, ⟨45, _⟩ => ⟨S400000, .i32⟩
  | .hbm, ⟨46, _⟩ => ⟨S400000, .i32⟩
  | .hbm, ⟨47, _⟩ => ⟨S400000, .i32⟩
  | .hbm, ⟨48, _⟩ => ⟨S400000x1, .i32⟩
  | .hbm, ⟨49, _⟩ => ⟨S400000x256, .f32⟩
  | .hbm, ⟨50, _⟩ => ⟨S_, .f32⟩
  | .hbm, ⟨51, _⟩ => ⟨S25000x256, .f32⟩
  | .hbm, ⟨52, _⟩ => ⟨S400000x1, .i32⟩
  | .hbm, ⟨53, _⟩ => ⟨S25000x256, .f32⟩
  | .hbm, ⟨54, _⟩ => ⟨S_, .f32⟩
  | .hbm, ⟨55, _⟩ => ⟨S400000, .f32⟩
  | .hbm, ⟨56, _⟩ => ⟨S_, .f32⟩
  | .hbm, ⟨57, _⟩ => ⟨S25000, .f32⟩
  | .hbm, ⟨58, _⟩ => ⟨S400000x1, .i32⟩
  | .hbm, ⟨59, _⟩ => ⟨S25000, .f32⟩
  | .hbm, ⟨60, _⟩ => ⟨S_, .f32⟩
  | .hbm, ⟨61, _⟩ => ⟨S_, .f32⟩
  | .hbm, ⟨62, _⟩ => ⟨S25000, .f32⟩
  | .hbm, ⟨63, _⟩ => ⟨S25000, .f32⟩
  | .hbm, ⟨64, _⟩ => ⟨S25000x1, .f32⟩
  | .hbm, ⟨65, _⟩ => ⟨S25000x256, .f32⟩
  | .hbm, ⟨66, _⟩ => ⟨S25000x256, .f32⟩
  | .hbm, ⟨67, _⟩ => ⟨S25000x256, .f32⟩
  | .hbm, ⟨68, _⟩ => ⟨S256x128, .f32⟩
  | .hbm, ⟨69, _⟩ => ⟨S256x128, .f32⟩
  | .hbm, ⟨70, _⟩ => ⟨S25000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x128, .f32⟩
  | .local _ .vmem, ⟨14, _⟩ => ⟨S128, .f32⟩
  | .local _ .vmem, ⟨15, _⟩ => ⟨S256x128, .f32⟩
  | .local _ .vmem, ⟨16, _⟩ => ⟨S5000x128, .f32⟩
  | .local _ .vmem, ⟨17, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_call1_v0 : Ref sig .tc := ⟨.hbm, 61, rfl⟩
abbrev main_call1_v1 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S500000x128_S100000x128_0_0 : S500000x128.Slices ![0, 0] S100000x128
  transposes_S256x128_S128x256_1_0 : S256x128.Transposes [1, 0] S128x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S400000 : S_.BroadcastsInDim S400000 (![] : Fin 0 → Fin S400000.rank)
  bcast_S400000_S400000x1_0 : S400000.BroadcastsInDim S400000x1 (![0] : Fin 1 → Fin S400000x1.rank)
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x256_0_1 : S25000x1.BroadcastsInDim S25000x256 (![0, 1] : Fin 2 → Fin S25000x256.rank)
  slices_S100000x256_S25000x256_0_0 : S100000x256.Slices ![0, 0] S25000x256
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S500000x128_S1600000x1_S1600000x128_1_0_n_n_0_1_1128_wf : GatherDims.WF S500000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x256_S2000x256_1_0_0_1_n_n_wf : DotDims.WF S2000x128 S128x256 S2000x256 [1] [0] [0] [1] [] []
  gather_S100000x256_S400000x1_S400000x256_1_0_n_n_0_1_1256_wf : GatherDims.WF S100000x256 S400000x1 S400000x256 [1] [0] [] [0] [] 1 ![1, 256]
  scatter_S25000x256_S400000x1_S400000x256_1_0_0_1_wf : ScatterDims.WF S25000x256 S400000x1 S400000x256 [1] [0] [0] 1
  scatter_S25000_S400000x1_S400000_n_0_0_1_wf : ScatterDims.WF S25000 S400000x1 S400000 [] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S25000x256.size a
  hwx1_0 : ∀ i : grid1.Coords, EltTy.bits .f32 = 32 ∨ (Rect.block (s := S25000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S25000x256.size a
  hwx1_1 : ∀ i : grid1.Coords, EltTy.bits .f32 = 32 ∨ (Rect.block (s := S25000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S25000x128.size a
  hwx1_5 : ∀ i : grid1.Coords, EltTy.bits .f32 = 32 ∨ (Rect.block (s := S25000x128) S5000x128.size (cc1_transform_5 i) (hinb1_5 i)).WholeWords (EltTy.packing .f32)

variable [Facts₀]

def gather_S500000x128_S1600000x1_S1600000x128_1_0_n_n_0_1_1128 : GatherDims S500000x128 S1600000x1 S1600000x128 where
  offsetDims := [1]
  collapsedSliceDims := [0]
  operandBatchingDims := []
  startIndicesBatchingDims := []
  startIndexMap := [0]
  indexVectorDim := 1
  sliceSizes := ![1, 128]
  wf := gather_S500000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S25000x256_S400000x1_S400000x256_1_0_0_1 : ScatterDims S25000x256 S400000x1 S400000x256 where
  updateWindowDims := [1]
  insertedWindowDims := [0]
  scatterDimsToOperandDims := [0]
  indexVectorDim := 1
  wf := scatter_S25000x256_S400000x1_S400000x256_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000x128 : Shape := ⟨2, ![500000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1600000 : Shape := ⟨1, ![1600000]⟩
abbrev S400000 : Shape := ⟨1, ![400000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S25000x256 : Shape := ⟨2, ![25000, 256]⟩
abbrev S400000x1 : Shape := ⟨2, ![400000, 1]⟩
abbrev S400000x256 : Shape := ⟨2, ![400000, 256]⟩
abbrev S25000 : Shape := ⟨1, ![25000]⟩
abbrev S25000x1 : Shape := ⟨2, ![25000, 1]⟩
abbrev S25000x128 : Shape := ⟨2, ![25000, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S256x128, .f32⟩
  | .hbm, ⟨2, _⟩ => ⟨S256, .f32⟩
  | .hbm, ⟨3, _⟩ => ⟨S256x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S1600000, .i32⟩
  | .hbm, ⟨8, _⟩ => ⟨S1600000, .i32⟩
  | .hbm, ⟨9, _⟩ => ⟨S400000, .i32⟩
  | .hbm, ⟨10, _⟩ => ⟨S400000, .i32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x256, .f32⟩
  | .hbm, ⟨39, _⟩ => ⟨S100000x256, .f32⟩
  | .hbm, ⟨40, _⟩ => ⟨S1x256, .f32⟩
  | .hbm, ⟨41, _⟩ => ⟨S100000x256, .f32⟩
  | .hbm, ⟨42, _⟩ => ⟨S100000x256, .f32⟩
  | .hbm, ⟨43, _⟩ => ⟨S128x256, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S25000x256, .f32⟩
  | .hbm, ⟨50, _⟩ => ⟨S_, .i32⟩
  | .hbm, ⟨51, _⟩ => ⟨S400000, .i32⟩
  | .hbm, ⟨52, _⟩ => ⟨S400000, .i1⟩
  | .hbm, ⟨53, _⟩ => ⟨S_, .i32⟩
  | .hbm, ⟨54, _⟩ => ⟨S400000, .i32⟩
  | .hbm, ⟨55, _⟩ => ⟨S400000, .i32⟩
  | .hbm, ⟨56, _⟩ => ⟨S400000, .i32⟩
  | .hbm, ⟨57, _⟩ => ⟨S400000x1, .i32⟩
  | .hbm, ⟨58, _⟩ => ⟨S400000x256, .f32⟩
  | .hbm, ⟨59, _⟩ => ⟨S_, .f32⟩
  | .hbm, ⟨60, _⟩ => ⟨S25000x256, .f32⟩
  | .hbm, ⟨61, _⟩ => ⟨S400000x1, .i32⟩
  | .hbm, ⟨62, _⟩ => ⟨S25000x256, .f32⟩
  | .hbm, ⟨63, _⟩ => ⟨S_, .f32⟩
  | .hbm, ⟨64, _⟩ => ⟨S400000, .f32⟩
  | .hbm, ⟨65, _⟩ => ⟨S_, .f32⟩
  | .hbm, ⟨66, _⟩ => ⟨S25000, .f32⟩
  | .hbm, ⟨67, _⟩ => ⟨S400000x1, .i32⟩
  | .hbm, ⟨68, _⟩ => ⟨S25000, .f32⟩
  | .hbm, ⟨69, _⟩ => ⟨S_, .f32⟩
  | .hbm, ⟨70, _⟩ => ⟨S_, .f32⟩
  | .hbm, ⟨71, _⟩ => ⟨S25000, .f32⟩
  | .hbm, ⟨72, _⟩ => ⟨S25000, .f32⟩
  | .hbm, ⟨73, _⟩ => ⟨S25000x1, .f32⟩
  | .hbm, ⟨74, _⟩ => ⟨S25000x256, .f32⟩
  | .hbm, ⟨75, _⟩ => ⟨S25000x256, .f32⟩
  | .hbm, ⟨76, _⟩ => ⟨S256x128, .f32⟩
  | .hbm, ⟨77, _⟩ => ⟨S25000x128, .f32⟩
  | .hbm, ⟨78, _⟩ => ⟨S1x128, .f32⟩
  | .hbm, ⟨79, _⟩ => ⟨S25000x128, .f32⟩
  | .hbm, ⟨80, _⟩ => ⟨S25000x128, .f32⟩
  | .hbm, ⟨81, _⟩ => ⟨S256x128, .f32⟩
  | .hbm, ⟨82, _⟩ => ⟨S25000x128, .f32⟩
  | .hbm, ⟨83, _⟩ => ⟨S25000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_call2_v0 : Ref sig .tc := ⟨.hbm, 70, rfl⟩
abbrev main_call2_v1 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]

class Facts₀ : Prop where
  slices_S500000x128_S100000x128_0_0 : S500000x128.Slices ![0, 0] S100000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  slices_S100000x256_S25000x256_0_0 : S100000x256.Slices ![0, 0] S25000x256
  bcast_S_S400000 : S_.BroadcastsInDim S400000 (![] : Fin 0 → Fin S400000.rank)
  bcast_S400000_S400000x1_0 : S400000.BroadcastsInDim S400000x1 (![0] : Fin 1 → Fin S400000x1.rank)
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x256_0_1 : S25000x1.BroadcastsInDim S25000x256 (![0, 1] : Fin 2 → Fin S25000x256.rank)
  transposes_S128x256_S256x128_1_0 : S128x256.Transposes [1, 0] S256x128
  bcast_S128_S1x128_1 : S128.BroadcastsInDim S1x128 (![1] : Fin 1 → Fin S1x128.rank)
  bcast_S1x128_S25000x128_0_1 : S1x128.BroadcastsInDim S25000x128 (![0, 1] : Fin 2 → Fin S25000x128.rank)
  gather_S500000x128_S1600000x1_S1600000x128_1_0_n_n_0_1_1128_wf : GatherDims.WF S500000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x256_S100000x256_1_0_0_1_n_n_wf : DotDims.WF S100000x128 S128x256 S100000x256 [1] [0] [0] [1] [] []
  gather_S100000x256_S400000x1_S400000x256_1_0_n_n_0_1_1256_wf : GatherDims.WF S100000x256 S400000x1 S400000x256 [1] [0] [] [0] [] 1 ![1, 256]
  scatter_S25000x256_S400000x1_S400000x256_1_0_0_1_wf : ScatterDims.WF S25000x256 S400000x1 S400000x256 [1] [0] [0] 1
  scatter_S25000_S400000x1_S400000_n_0_0_1_wf : ScatterDims.WF S25000 S400000x1 S400000 [] [0] [0] 1
  dot_S25000x256_S256x128_S25000x128_1_0_0_1_n_n_wf : DotDims.WF S25000x256 S256x128 S25000x128 [1] [0] [0] [1] [] []

variable [Facts₀]

def gather_S500000x128_S1600000x1_S1600000x128_1_0_n_n_0_1_1128 : GatherDims S500000x128 S1600000x1 S1600000x128 where
  offsetDims := [1]
  collapsedSliceDims := [0]
  operandBatchingDims := []
  startIndicesBatchingDims := []
  startIndexMap := [0]
  indexVectorDim := 1
  sliceSizes := ![1, 128]
  wf := gather_S500000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S25000x256_S400000x1_S400000x256_1_0_0_1 : ScatterDims S25000x256 S400000x1 S400000x256 where
  updateWindowDims := [1]
  insertedWindowDims := [0]
  scatterDimsToOperandDims := [0]
  indexVectorDim := 1
  wf := scatter_S25000x256_S400000x1_S400000x256_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S25000x256_S256x128_S25000x128_1_0_0_1_n_n : DotDims S25000x256 S256x128 S25000x128 where
  lhsContracting := [1]
  rhsContracting := [0]
  lhsNonContracting := [0]
  rhsNonContracting := [1]
  lhsBatch := []
  rhsBatch := []
  wf := dot_S25000x256_S256x128_S25000x128_1_0_0_1_n_n_wf

class Facts : Prop extends Facts₀ where

variable [Facts]
-- ==== Proof.Spec.lean ====
/-
  The mathematics of one SAGE layer, stated once over whole arrays and independent of any program text.

  A layer takes the mean-aggregated neighbour features `A` (one row per target node), the target nodes' own
  features `X`, two weight matrices `Wl`, `Wr` already laid out as (input feature) × (output feature), and a bias
  row `b`.  Entry (r, q) of its result is

      (∑ₖ A[r,k] · Wl[k,q]  +  ∑ₖ X[r,k] · Wr[k,q])  +  b[q]

  over the extended reals; the hidden layer takes the maximum of that with zero.  Each output row depends on the
  same row of `A` and of `X` only, which is why a tiling of the rows into blocks computes the same array.
-/
import Idealize.ShloMosaic.PureOps.Ideal
import Idealize.ShloMosaic.Lib.ValueIdx

noncomputable section

namespace Cert.Sage

open Idealize.ShloMosaic Idealize.ShloMosaic.ValueIdx

/-- One layer before its activation: entry (r, q) is (∑ₖ A[r,k]·Wl[k,q] + ∑ₖ X[r,k]·Wr[k,q]) + b[q]. -/
def comb (n d e : Nat) (A X : FVec Ideal ⟨2, ![n, d]⟩ .f32) (Wl Wr : FVec Ideal ⟨2, ![d, e]⟩ .f32)
    (b : FVec Ideal ⟨1, ![e]⟩ .f32) : FVec Ideal ⟨2, ![n, e]⟩ .f32 :=
  fun i => (∑ k : Fin d, A (ix2 (i 0) k) * Wl (ix2 k (i 1)) + ∑ k : Fin d, X (ix2 (i 0) k) * Wr (ix2 k (i 1)))
    + b (ix1 (i 1))

/-- The hidden layer: the same followed by the positive part. -/
def combRelu (n d e : Nat) (A X : FVec Ideal ⟨2, ![n, d]⟩ .f32) (Wl Wr : FVec Ideal ⟨2, ![d, e]⟩ .f32)
    (b : FVec Ideal ⟨1, ![e]⟩ .f32) : FVec Ideal ⟨2, ![n, e]⟩ .f32 :=
  fun i => max (comb n d e A X Wl Wr b i) (Ideal.ofBits .f32 0x00000000#32)

theorem comb_apply (n d e : Nat) (A X : FVec Ideal ⟨2, ![n, d]⟩ .f32) (Wl Wr : FVec Ideal ⟨2, ![d, e]⟩ .f32)
    (b : FVec Ideal ⟨1, ![e]⟩ .f32) (r : Fin n) (q : Fin e) :
    comb n d e A X Wl Wr b (ix2 r q)
      = (∑ k : Fin d, A (ix2 r k) * Wl (ix2 k q) + ∑ k : Fin d, X (ix2 r k) * Wr (ix2 k q)) + b (ix1 q) := rfl

theorem combRelu_apply (n d e : Nat) (A X : FVec Ideal ⟨2, ![n, d]⟩ .f32) (Wl Wr : FVec Ideal ⟨2, ![d, e]⟩ .f32)
    (b : FVec Ideal ⟨1, ![e]⟩ .f32) (r : Fin n) (q : Fin e) :
    combRelu n d e A X Wl Wr b (ix2 r q)
      = max ((∑ k : Fin d, A (ix2 r k) * Wl (ix2 k q) + ∑ k : Fin d, X (ix2 r k) * Wr (ix2 k q)) + b (ix1 q))
          (Ideal.ofBits .f32 0x00000000#32) := rfl

/-- The one law that joins the two programs: the bias may be added before or after the second product.
    Addition on the extended reals is commutative and associative, so no finiteness is needed. -/
theorem add_bias_comm (s t u : EReal) : (s + t) + u = (s + u) + t := add_right_comm s t u

end Cert.Sage

end
-- ==== Proof.Region0.lean ====
/-
  Region 0 (the hidden layer), from blocks to the whole array.

  Grid point t of the first launch loads rows 2000·t … 2000·t + 1999 of the aggregated features and of the target
  features, the two whole weight matrices and the bias, and stores rows 2000·t … 2000·t + 1999 of the result.  Row r
  of a block's result depends on row r of the two loaded feature blocks only, so the block point t writes back is the
  restriction to those rows of ONE function of the whole arrays, `Cert.Sage.combRelu`; the fifty blocks tile the
  100000 rows, so the array ends holding that function everywhere.
-/
import proofs.«156704_j55078660603921_1_alg».proof.Proof.Gen.KernelIdeal.Frame
import proofs.«156704_j55078660603921_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## One block's arithmetic at an entry -/

/-- The product's left operand is read at the output's row … -/
theorem lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- … and at the contracted feature; -/
theorem lhs_feat (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- the right operand at the contracted feature … -/
theorem rhs_feat (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- … and at the output's column. -/
theorem rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block product into the zero accumulator, at entry (p, q): the sum over the 128 features of row p of the left
    block times column q of the right matrix. -/
theorem product_apply (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_row _ _
    | ⟨1, _⟩ => exact (lhs_feat _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_feat _ _).trans hk
    | ⟨1, _⟩ => exact rhs_col _ _)
  rw [el, er]

/-- The body's arithmetic at entry (p, q) of a block: the two products of row p summed, the bias at column q added,
    and the positive part taken. -/
theorem pay_apply (x0 x1 : Vec Ideal S2000x128 .f32) (x2 x4 : Vec Ideal S128x256 .f32) (x3 : Vec Ideal S256 .f32)
    (p : Fin 2000) (q : Fin 256) :
    k0_pay1 (F := Ideal) x0 x1 x2 x4 x3 (ix2 p q)
      = max ((∑ k : Fin 128, x0 (ix2 p k) * x2 (ix2 k q) + ∑ k : Fin 128, x1 (ix2 p k) * x4 (ix2 k q)) + x3 (ix1 q))
          (Ideal.ofBits .f32 0x00000000#32) := by
  unfold k0_pay1
  rw [maximumf_apply, addf_apply, addf_apply, product_apply, product_apply, broadcast_apply,
    broadcastTo_1b_ab_apply, shapeCast_a_1a_apply]
  simp only [shapeCast_self, truncf_apply]
  rfl

/-! ## The blocks a point loads, as entries of the whole arrays -/

theorem hz : (![0, 0] : Fin 2 → Nat) = fun _ => 0 := funext fun a => by fin_cases a <;> rfl
theorem hz1 : (![0] : Fin 1 → Nat) = fun _ => 0 := funext fun a => by fin_cases a <;> rfl

/-- The block indices, decided over the fifty points: the two feature windows and the result window sit at row block
    t, every other block index is zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregated-feature block at point t is row 2000·t + p of the array. -/
theorem agg_block_apply (c : Dev nD) (t : Fin cfg0.N) (p : Fin 2000) (k : Fin 128) (r : Fin 100000)
    (hr : r.val = t.val * 2000 + p.val) :
    (iblk0 V c 0 t : Vec Ideal S2000x128 .f32) (ix2 p k) = (V c main_v17 : FVec Ideal ⟨2, ![100000, 128]⟩ .f32) (ix2 r k) := by
  obtain ⟨e0, e1, -⟩ := index_facts t
  unfold iblk0
  rw [View.read_apply]
  show V c main_v17 _ = V c main_v17 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row p of the target-feature block at point t is row 2000·t + p of the array. -/
theorem self_block_apply (c : Dev nD) (t : Fin cfg0.N) (p : Fin 2000) (k : Fin 128) (r : Fin 100000)
    (hr : r.val = t.val * 2000 + p.val) :
    (iblk0 V c 1 t : Vec Ideal S2000x128 .f32) (ix2 p k) = (V c main_v18 : FVec Ideal ⟨2, ![100000, 128]⟩ .f32) (ix2 r k) := by
  obtain ⟨-, -, e0, e1, -⟩ := index_facts t
  unfold iblk0
  rw [View.read_apply]
  show V c main_v18 _ = V c main_v18 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The weight matrix of the aggregated features is loaded whole at every point. -/
theorem wl_block_apply (c : Dev nD) (t : Fin cfg0.N) (k : Fin 128) (q : Fin 256) :
    (iblk0 V c 2 t : Vec Ideal S128x256 .f32) (ix2 k q) = (V c main_v19 : FVec Ideal ⟨2, ![128, 256]⟩ .f32) (ix2 k q) := by
  obtain ⟨-, -, -, -, e0, e1, -⟩ := index_facts t
  unfold iblk0
  rw [View.read_apply]
  show V c main_v19 _ = V c main_v19 _
  congr 1
  funext a
  apply Fin.ext
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- So is the weight matrix of the target features … -/
theorem wr_block_apply (c : Dev nD) (t : Fin cfg0.N) (k : Fin 128) (q : Fin 256) :
    (iblk0 V c 4 t : Vec Ideal S128x256 .f32) (ix2 k q) = (V c main_v20 : FVec Ideal ⟨2, ![128, 256]⟩ .f32) (ix2 k q) := by
  obtain ⟨-, -, -, -, -, -, -, e0, e1, -⟩ := index_facts t
  unfold iblk0
  rw [View.read_apply]
  show V c main_v20 _ = V c main_v20 _
  congr 1
  funext a
  apply Fin.ext
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-- … and the bias row. -/
theorem bias_block_apply (c : Dev nD) (t : Fin cfg0.N) (q : Fin 256) :
    (iblk0 V c 3 t : Vec Ideal S256 .f32) (ix1 q) = (V c main_arg2 : FVec Ideal ⟨1, ![256]⟩ .f32) (ix1 q) := by
  obtain ⟨-, -, -, -, -, -, e0, -⟩ := index_facts t
  unfold iblk0
  rw [View.read_apply]
  show V c main_arg2 _ = V c main_arg2 _
  congr 1
  funext a
  apply Fin.ext
  match a with
  | ⟨0, _⟩ => show win0_3.index t (0 : Fin 1) * 256 + 1 * q.val = q.val; rw [e0]; omega

/-- Entry (p, q) of the result block of point t sits at row 2000·t + p, column q of the result array. -/
theorem out_block_emb (t : Fin cfg0.N) (p : Fin 2000) (q : Fin 256) (r : Fin 100000) (hr : r.val = t.val * 2000 + p.val) :
    (((cfg0.win 5).blk t).view.emb (ix2 p q) : (⟨2, ![100000, 256]⟩ : Shape).Idx) = ix2 r q := by
  obtain ⟨-, -, -, -, -, -, -, -, -, e0, e1⟩ := index_facts t
  funext a
  apply Fin.ext
  match a with
  | ⟨0, _⟩ => show win0_5.index t (0 : Fin 2) * 2000 + 1 * p.val = r.val; rw [e0, hr]; omega
  | ⟨1, _⟩ => show win0_5.index t (1 : Fin 2) * 256 + 1 * q.val = q.val; rw [e1]; omega

/-! ## What a point writes back -/

/-- The body's result at entry (p, q) of point t's block is the hidden layer of the whole arrays at row 2000·t + p. -/
theorem block_entry (c : Dev nD) (t : Fin cfg0.N) (p : Fin 2000) (q : Fin 256) (r : Fin 100000)
    (hr : r.val = t.val * 2000 + p.val) :
    k0_pay1 (F := Ideal) (iblk0 V c 0 t) (iblk0 V c 1 t) (iblk0 V c 2 t) (iblk0 V c 4 t) (iblk0 V c 3 t) (ix2 p q)
      = Cert.Sage.combRelu 100000 128 256 (V c main_v17) (V c main_v18) (V c main_v19) (V c main_v20) (V c main_arg2) (ix2 r q) := by
  refine (pay_apply (iblk0 V c 0 t) (iblk0 V c 1 t) (iblk0 V c 2 t) (iblk0 V c 4 t) (iblk0 V c 3 t) p q).trans ?_
  rw [Cert.Sage.combRelu_apply, bias_block_apply V c t q]
  congr 2
  congr 1
  · exact Finset.sum_congr rfl fun k _ => by rw [agg_block_apply V c t p k r hr, wl_block_apply V c t k q]
  · exact Finset.sum_congr rfl fun k _ => by rw [self_block_apply V c t p k r hr, wr_block_apply V c t k q]

/-- WHAT POINT t WRITES BACK is block t of the hidden layer of the arrays the region finds. -/
theorem flushed_eq (c : Dev nD) (t : Fin cfg0.N) :
    (dat0 (F := Ideal) V c).flushed 5 t
      = ((cfg0.win 5).blk t).view.read (Elt Ideal)
          (Cert.Sage.combRelu 100000 128 256 (V c main_v17) (V c main_v18) (V c main_v19) (V c main_v20) (V c main_arg2)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S256) hz1]
  funext j
  obtain ⟨p, q, rfl⟩ : ∃ (p : Fin 2000) (q : Fin 256), j = ix2 p q := ⟨j 0, j 1, eq_ix2 j⟩
  have hN : grid0.N = 50 := N_0
  have ht : t.val < 50 := hN ▸ t.isLt
  have hr : t.val * 2000 + p.val < 100000 := by have := p.isLt; omega
  refine (block_entry V c t p q ⟨t.val * 2000 + p.val, hr⟩ rfl).trans ?_
  rw [View.read_apply, out_block_emb t p q ⟨t.val * 2000 + p.val, hr⟩ rfl]
  rfl

/-! ## The fifty blocks tile the result array -/

/-- An index of the result array is in point t's block iff each coordinate is in the block's range on its axis. -/
theorem mem_block (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v21).slice (win0_5.rect t)).set ↔ _
  rw [View.set_slice_whole, Rect.mem_set_unit]
  exact Iff.rfl

/-- Row r of the result array lies in the block of point r / 2000, which holds all 256 columns. -/
theorem cover (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  have hN : cfg0.N = 50 := N_0
  have hlt : (i 0).val / 2000 < cfg0.N := by rw [hN]; omega
  obtain ⟨-, -, -, -, -, -, -, -, -, e0, e1⟩ := index_facts ⟨(i 0).val / 2000, hlt⟩
  refine ⟨⟨(i 0).val / 2000, hlt⟩, flush0_5 _, ?_⟩
  rw [mem_block]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, hlt⟩ (1 : Fin 2) * 256 ≤ (i 1).val
      ∧ (i 1).val < win0_5.index ⟨(i 0).val / 2000, hlt⟩ (1 : Fin 2) * 256 + 256
    rw [e1]
    omega

/-- The result array of region 0 after its fifty points: the hidden layer of the arrays the region finds. -/
theorem final0 (c : Dev nD) :
    (dat0 (F := Ideal) V c).arrAt 5 cfg0.N
      = Cert.Sage.combRelu 100000 128 256 (V c main_v17) (V c main_v18) (V c main_v19) (V c main_v20) (V c main_arg2) :=
  (dat0 (F := Ideal) V c).arrAt_eq_of_cover 5
    (Cert.Sage.combRelu 100000 128 256 (V c main_v17) (V c main_v18) (V c main_v19) (V c main_v20) (V c main_arg2))
    (fun t _ => flushed_eq V c t) cover

end Cert.KernelIdeal.Region0

end
-- ==== Proof.Region1.lean ====
/-
  Region 1 (the output layer), from blocks to the whole array.

  Grid point t of the second launch loads rows 5000·t … 5000·t + 4999 of the aggregated hidden rows and of the target
  hidden rows, the two whole weight matrices and the bias, and stores the same rows of the result; the block it
  writes back is the restriction to those rows of `Cert.Sage.comb` of the whole arrays, and the five blocks tile the
  25000 rows.
-/
import proofs.«156704_j55078660603921_1_alg».proof.Proof.Gen.KernelIdeal.Frame
import proofs.«156704_j55078660603921_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## One block's arithmetic at an entry -/

/-- The product's left operand is read at the output's row … -/
theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- … and at the contracted hidden feature; -/
theorem lhs_feat (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- the right operand at the contracted hidden feature … -/
theorem rhs_feat (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- … and at the output's column. -/
theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A block product into the zero accumulator, at entry (p, q): the sum over the 256 hidden features of row p of the
    left block times column q of the right matrix. -/
theorem product_apply (a : FVec Ideal S5000x256 .bf16) (b : FVec Ideal S256x128 .bf16) (p : Fin 5000) (q : Fin 128) :
    matmul dot_S5000x256_S256x128_S5000x128_1_0_0_1_n_n none a b (constant (F := Ideal) S5000x128 .f32 0x00000000#32) (ix2 p q)
      = ∑ k : Fin 256, a (ix2 p k) * b (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_row _ _
    | ⟨1, _⟩ => exact (lhs_feat _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_feat _ _).trans hk
    | ⟨1, _⟩ => exact rhs_col _ _)
  rw [el, er]

/-- The body's arithmetic at entry (p, q) of a block: the two products of row p summed and the bias at column q
    added; the output layer has no activation. -/
theorem pay_apply (x0 x1 : Vec Ideal S5000x256 .f32) (x2 x4 : Vec Ideal S256x128 .f32) (x3 : Vec Ideal S128 .f32)
    (p : Fin 5000) (q : Fin 128) :
    k1_pay1 (F := Ideal) x0 x1 x2 x4 x3 (ix2 p q)
      = (∑ k : Fin 256, x0 (ix2 p k) * x2 (ix2 k q) + ∑ k : Fin 256, x1 (ix2 p k) * x4 (ix2 k q)) + x3 (ix1 q) := by
  unfold k1_pay1
  rw [addf_apply, addf_apply, product_apply, product_apply, broadcastTo_1b_ab_apply, shapeCast_a_1a_apply]
  simp only [shapeCast_self, truncf_apply]

/-! ## The blocks a point loads, as entries of the whole arrays -/

theorem hz : (![0, 0] : Fin 2 → Nat) = fun _ => 0 := funext fun a => by fin_cases a <;> rfl
theorem hz1 : (![0] : Fin 1 → Nat) = fun _ => 0 := funext fun a => by fin_cases a <;> rfl

/-- The block indices, decided over the five points: the two hidden-row windows and the result window sit at row
    block t, every other block index is zero. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregated hidden block at point t is row 5000·t + p of the array. -/
theorem agg_block_apply (c : Dev nD) (t : Fin cfg1.N) (p : Fin 5000) (k : Fin 256) (r : Fin 25000)
    (hr : r.val = t.val * 5000 + p.val) :
    (iblk1 V c 0 t : Vec Ideal S5000x256 .f32) (ix2 p k) = (V c main_v39 : FVec Ideal ⟨2, ![25000, 256]⟩ .f32) (ix2 r k) := by
  obtain ⟨e0, e1, -⟩ := index_facts t
  unfold iblk1
  rw [View.read_apply]
  show V c main_v39 _ = V c main_v39 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 256 + 1 * k.val = k.val; rw [e1]; omega

/-- Row p of the target hidden block at point t is row 5000·t + p of the array. -/
theorem self_block_apply (c : Dev nD) (t : Fin cfg1.N) (p : Fin 5000) (k : Fin 256) (r : Fin 25000)
    (hr : r.val = t.val * 5000 + p.val) :
    (iblk1 V c 1 t : Vec Ideal S5000x256 .f32) (ix2 p k) = (V c main_v40 : FVec Ideal ⟨2, ![25000, 256]⟩ .f32) (ix2 r k) := by
  obtain ⟨-, -, e0, e1, -⟩ := index_facts t
  unfold iblk1
  rw [View.read_apply]
  show V c main_v40 _ = V c main_v40 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 256 + 1 * k.val = k.val; rw [e1]; omega

/-- The weight matrix of the aggregated hidden rows is loaded whole at every point. -/
theorem wl_block_apply (c : Dev nD) (t : Fin cfg1.N) (k : Fin 256) (q : Fin 128) :
    (iblk1 V c 2 t : Vec Ideal S256x128 .f32) (ix2 k q) = (V c main_v41 : FVec Ideal ⟨2, ![256, 128]⟩ .f32) (ix2 k q) := by
  obtain ⟨-, -, -, -, e0, e1, -⟩ := index_facts t
  unfold iblk1
  rw [View.read_apply]
  show V c main_v41 _ = V c main_v41 _
  congr 1
  funext a
  apply Fin.ext
  match a with
  | ⟨0, _⟩ => show win1_2.index t (0 : Fin 2) * 256 + 1 * k.val = k.val; rw [e0]; omega
  | ⟨1, _⟩ => show win1_2.index t (1 : Fin 2) * 128 + 1 * q.val = q.val; rw [e1]; omega

/-- So is the weight matrix of the target hidden rows … -/
theorem wr_block_apply (c : Dev nD) (t : Fin cfg1.N) (k : Fin 256) (q : Fin 128) :
    (iblk1 V c 4 t : Vec Ideal S256x128 .f32) (ix2 k q) = (V c main_v42 : FVec Ideal ⟨2, ![256, 128]⟩ .f32) (ix2 k q) := by
  obtain ⟨-, -, -, -, -, -, -, e0, e1, -⟩ := index_facts t
  unfold iblk1
  rw [View.read_apply]
  show V c main_v42 _ = V c main_v42 _
  congr 1
  funext a
  apply Fin.ext
  match a with
  | ⟨0, _⟩ => show win1_4.index t (0 : Fin 2) * 256 + 1 * k.val = k.val; rw [e0]; omega
  | ⟨1, _⟩ => show win1_4.index t (1 : Fin 2) * 128 + 1 * q.val = q.val; rw [e1]; omega

/-- … and the bias row. -/
theorem bias_block_apply (c : Dev nD) (t : Fin cfg1.N) (q : Fin 128) :
    (iblk1 V c 3 t : Vec Ideal S128 .f32) (ix1 q) = (V c main_arg5 : FVec Ideal ⟨1, ![128]⟩ .f32) (ix1 q) := by
  obtain ⟨-, -, -, -, -, -, e0, -⟩ := index_facts t
  unfold iblk1
  rw [View.read_apply]
  show V c main_arg5 _ = V c main_arg5 _
  congr 1
  funext a
  apply Fin.ext
  match a with
  | ⟨0, _⟩ => show win1_3.index t (0 : Fin 1) * 128 + 1 * q.val = q.val; rw [e0]; omega

/-- Entry (p, q) of the result block of point t sits at row 5000·t + p, column q of the result array. -/
theorem out_block_emb (t : Fin cfg1.N) (p : Fin 5000) (q : Fin 128) (r : Fin 25000) (hr : r.val = t.val * 5000 + p.val) :
    (((cfg1.win 5).blk t).view.emb (ix2 p q) : (⟨2, ![25000, 128]⟩ : Shape).Idx) = ix2 r q := by
  obtain ⟨-, -, -, -, -, -, -, -, -, e0, e1⟩ := index_facts t
  funext a
  apply Fin.ext
  match a with
  | ⟨0, _⟩ => show win1_5.index t (0 : Fin 2) * 5000 + 1 * p.val = r.val; rw [e0, hr]; omega
  | ⟨1, _⟩ => show win1_5.index t (1 : Fin 2) * 128 + 1 * q.val = q.val; rw [e1]; omega

/-! ## What a point writes back -/

/-- The body's result at entry (p, q) of point t's block is the output layer of the whole arrays at row 5000·t + p. -/
theorem block_entry (c : Dev nD) (t : Fin cfg1.N) (p : Fin 5000) (q : Fin 128) (r : Fin 25000)
    (hr : r.val = t.val * 5000 + p.val) :
    k1_pay1 (F := Ideal) (iblk1 V c 0 t) (iblk1 V c 1 t) (iblk1 V c 2 t) (iblk1 V c 4 t) (iblk1 V c 3 t) (ix2 p q)
      = Cert.Sage.comb 25000 256 128 (V c main_v39) (V c main_v40) (V c main_v41) (V c main_v42) (V c main_arg5) (ix2 r q) := by
  refine (pay_apply (iblk1 V c 0 t) (iblk1 V c 1 t) (iblk1 V c 2 t) (iblk1 V c 4 t) (iblk1 V c 3 t) p q).trans ?_
  rw [Cert.Sage.comb_apply, bias_block_apply V c t q]
  congr 2
  · exact Finset.sum_congr rfl fun k _ => by rw [agg_block_apply V c t p k r hr, wl_block_apply V c t k q]
  · exact Finset.sum_congr rfl fun k _ => by rw [self_block_apply V c t p k r hr, wr_block_apply V c t k q]

/-- WHAT POINT t WRITES BACK is block t of the output layer of the arrays the region finds. -/
theorem flushed_eq (c : Dev nD) (t : Fin cfg1.N) :
    (dat1 (F := Ideal) V c).flushed 5 t
      = ((cfg1.win 5).blk t).view.read (Elt Ideal)
          (Cert.Sage.comb 25000 256 128 (V c main_v39) (V c main_v40) (V c main_v41) (V c main_v42) (V c main_arg5)) := by
  show (cfg1.win 5).cut (grid1.coords t) ((dat1 V c).after 5 t) = _
  rw [after1_5]
  unfold out1_5
  rw [View.canon_unit_zero hz]
  simp only [View.ld_unit_zero (S := S5000x256) hz, View.ld_unit_zero (S := S256x128) hz, View.ld_unit_zero (S := S128) hz1]
  funext j
  obtain ⟨p, q, rfl⟩ : ∃ (p : Fin 5000) (q : Fin 128), j = ix2 p q := ⟨j 0, j 1, eq_ix2 j⟩
  have hN : grid1.N = 5 := N_1
  have ht : t.val < 5 := hN ▸ t.isLt
  have hr : t.val * 5000 + p.val < 25000 := by have := p.isLt; omega
  refine (block_entry V c t p q ⟨t.val * 5000 + p.val, hr⟩ rfl).trans ?_
  rw [View.read_apply, out_block_emb t p q ⟨t.val * 5000 + p.val, hr⟩ rfl]
  rfl

/-! ## The five blocks tile the result array -/

/-- An index of the result array is in point t's block iff each coordinate is in the block's range on its axis. -/
theorem mem_block (t : Fin cfg1.N) (i : S25000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- Row r of the result array lies in the block of point r / 5000, which holds all 128 columns. -/
theorem cover (i : S25000x128.Idx) :
    ∃ t : Fin cfg1.N, (cfg1.win 5).flush t = true ∧ i ∈ ((cfg1.win 5).blk t).view.set := by
  have hi0 : (i 0).val < 25000 := (i 0).isLt
  have hi1 : (i 1).val < 128 := (i 1).isLt
  have hN : cfg1.N = 5 := N_1
  have hlt : (i 0).val / 5000 < cfg1.N := by rw [hN]; omega
  obtain ⟨-, -, -, -, -, -, -, -, -, e0, e1⟩ := index_facts ⟨(i 0).val / 5000, hlt⟩
  refine ⟨⟨(i 0).val / 5000, hlt⟩, flush1_5 _, ?_⟩
  rw [mem_block]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    rw [e1]
    omega

/-- The result array of region 1 after its five points: the output layer of the arrays the region finds. -/
theorem final1 (c : Dev nD) :
    (dat1 (F := Ideal) V c).arrAt 5 cfg1.N
      = Cert.Sage.comb 25000 256 128 (V c main_v39) (V c main_v40) (V c main_v41) (V c main_v42) (V c main_arg5) :=
  (dat1 (F := Ideal) V c).arrAt_eq_of_cover 5
    (Cert.Sage.comb 25000 256 128 (V c main_v39) (V c main_v40) (V c main_v41) (V c main_v42) (V c main_arg5))
    (fun t _ => flushed_eq V c t) cover

end Cert.KernelIdeal.Region1

end
-- ==== Proof.Chain.lean ====
/-
  The reference's result, cut into its mathematical pieces.

  Both programs compute a two-layer SAGE network.  A layer first averages, for every target node, the feature rows
  of the source nodes on its incoming edges (a gather of the source rows, a scatter-add of them onto the targets, a
  scatter-add of ones for the edge counts, the counts raised to at least one, and the quotient), then applies two
  linear maps, one to that average and one to the target's own row, and adds a bias.  The averaging is done by the
  same host operations in both programs, so here it is only NAMED, one function per layer (`agg0`, `agg1`), and never
  opened; the linear part (`lin0`, `lin1`) is what differs between the programs and is what the value proof reads at
  an index.  `res_eq` says the reference's composed result term is these pieces put together.
-/
import proofs.«156704_j55078660603921_1_alg».proof.Proof.Gen.ReferenceIdeal.Run

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-- Layer 0's mean aggregation: row r is the sum of `x[src e]` over the edges e with `dst e = r`, divided by the number of
    such edges raised to at least one (a negative source index counts from the end, as jnp indexing does). -/
def agg0 (x : (⟨S500000x128, .f32⟩ : BufTy).Contents (Elt F)) (src dst : (⟨S1600000, .i32⟩ : BufTy).Contents (Elt F)) :
    (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S500000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 500000#32))) src)))) (broadcastInDim S100000x128 ![0, 1] bcast_S100000x1_S100000x128_0_1 (broadcastInDim S100000x1 ![0] bcast_S100000_S100000x1_0 (maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))))))

/-- Layer 1's mean aggregation, of the hidden rows `h`. -/
def agg1 (h : (⟨S100000x256, .f32⟩ : BufTy).Contents (Elt F)) (src dst : (⟨S400000, .i32⟩ : BufTy).Contents (Elt F)) :
    (⟨S25000x256, .f32⟩ : BufTy).Contents (Elt F) :=
  Host.divf (Host.scatterAdd scatter_S25000x256_S400000x1_S400000x256_1_0_0_1 (broadcastInDim S25000x256 ![] bcast_S_S25000x256 (constant S_ .f32 0x00000000#32)) (broadcastInDim S400000x1 ![0] bcast_S400000_S400000x1_0 dst) (Host.gather gather_S100000x256_S400000x1_S400000x256_1_0_n_n_0_1_1256 h (broadcastInDim S400000x1 ![0] bcast_S400000_S400000x1_0 (select (cmpi .slt src (broadcastInDim S400000 ![] bcast_S_S400000 (constantI S_ 32 0#32))) (addi src (broadcastInDim S400000 ![] bcast_S_S400000 (constantI S_ 32 100000#32))) src)))) (broadcastInDim S25000x256 ![0, 1] bcast_S25000x1_S25000x256_0_1 (broadcastInDim S25000x1 ![0] bcast_S25000_S25000x1_0 (maximumf (broadcastInDim S25000 ![] bcast_S_S25000 (id (constant S_ .f32 0x3F800000#32))) (Host.scatterAdd scatter_S25000_S400000x1_S400000_n_0_0_1 (broadcastInDim S25000 ![] bcast_S_S25000 (constant S_ .f32 0x00000000#32)) (broadcastInDim S400000x1 ![0] bcast_S400000_S400000x1_0 dst) (broadcastInDim S400000 ![] bcast_S_S400000 (constant S_ .f32 0x3F800000#32))))))

/-- The target nodes of layer 0 are the first 100000 source nodes. -/
def sl0 (x : (⟨S500000x128, .f32⟩ : BufTy).Contents (Elt F)) : (⟨S100000x128, .f32⟩ : BufTy).Contents (Elt F) :=
  extractStridedSlice S100000x128 ![0, 0] x slices_S500000x128_S100000x128_0_0

/-- The target nodes of layer 1 are the first 25000 hidden rows. -/
def sl1 (h : (⟨S100000x256, .f32⟩ : BufTy).Contents (Elt F)) : (⟨S25000x256, .f32⟩ : BufTy).Contents (Elt F) :=
  extractStridedSlice S25000x256 ![0, 0] h slices_S100000x256_S25000x256_0_0

/-- A layer-0 weight matrix laid out as (input feature) × (output feature). -/
def tr0 (w : (⟨S256x128, .f32⟩ : BufTy).Contents (Elt F)) : (⟨S128x256, .f32⟩ : BufTy).Contents (Elt F) :=
  transpose S128x256 [1, 0] w transposes_S256x128_S128x256_1_0

/-- A layer-1 weight matrix laid out as (input feature) × (output feature). -/
def tr1 (w : (⟨S128x256, .f32⟩ : BufTy).Contents (Elt F)) : (⟨S256x128, .f32⟩ : BufTy).Contents (Elt F) :=
  transpose S256x128 [1, 0] w transposes_S128x256_S256x128_1_0

/-- The reference's layer 0 after the aggregation: (A·Wl + b) + X·Wr, then the positive part. -/
def lin0 (A X : (⟨S100000x128, .f32⟩ : BufTy).Contents (Elt F)) (Wl Wr : (⟨S128x256, .f32⟩ : BufTy).Contents (Elt F))
    (b : (⟨S256, .f32⟩ : BufTy).Contents (Elt F)) : (⟨S100000x256, .f32⟩ : BufTy).Contents (Elt F) :=
  maximumf (addf (addf (Host.dotGeneral dot_S100000x128_S128x256_S100000x256_1_0_0_1_n_n none A Wl) (broadcastInDim S100000x256 ![0, 1] bcast_S1x256_S100000x256_0_1 (broadcastInDim S1x256 ![1] bcast_S256_S1x256_1 b))) (Host.dotGeneral dot_S100000x128_S128x256_S100000x256_1_0_0_1_n_n none X Wr)) (broadcastInDim S100000x256 ![] bcast_S_S100000x256 (constant S_ .f32 0x00000000#32))

/-- The reference's layer 1 after the aggregation: (A·Wl + b) + X·Wr. -/
def lin1 (A X : (⟨S25000x256, .f32⟩ : BufTy).Contents (Elt F)) (Wl Wr : (⟨S256x128, .f32⟩ : BufTy).Contents (Elt F))
    (b : (⟨S128, .f32⟩ : BufTy).Contents (Elt F)) : (⟨S25000x128, .f32⟩ : BufTy).Contents (Elt F) :=
  addf (addf (Host.dotGeneral dot_S25000x256_S256x128_S25000x128_1_0_0_1_n_n none A Wl) (broadcastInDim S25000x128 ![0, 1] bcast_S1x128_S25000x128_0_1 (broadcastInDim S1x128 ![1] bcast_S128_S1x128_1 b))) (Host.dotGeneral dot_S25000x256_S256x128_S25000x128_1_0_0_1_n_n none X Wr)

/-- The hidden rows as the reference computes them from the arguments. -/
def hid (m : (ℓ : Loc nD τ sig) → Buf (Elt F) ℓ) (c : Dev nD) : (⟨S100000x256, .f32⟩ : BufTy).Contents (Elt F) :=
  lin0 (agg0 (m ((c.tc : Thread nD τ).loc main_arg0)) (m ((c.tc : Thread nD τ).loc main_arg7)) (m ((c.tc : Thread nD τ).loc main_arg8)))
    (sl0 (m ((c.tc : Thread nD τ).loc main_arg0))) (tr0 (m ((c.tc : Thread nD τ).loc main_arg1))) (tr0 (m ((c.tc : Thread nD τ).loc main_arg3)))
    (m ((c.tc : Thread nD τ).loc main_arg2))

/-- The reference's result is layer 1 of the hidden rows: the composed term of its run, by unfolding the names. -/
theorem res_eq (m : (ℓ : Loc nD τ sig) → Buf (Elt F) ℓ) (c : Dev nD) :
    Cert.ReferenceIdeal.Value.res_main_v54 (F := F) m c
      = lin1 (agg1 (hid m c) (m ((c.tc : Thread nD τ).loc main_arg9)) (m ((c.tc : Thread nD τ).loc main_arg10)))
          (sl1 (hid m c)) (tr1 (m ((c.tc : Thread nD τ).loc main_arg4))) (tr1 (m ((c.tc : Thread nD τ).loc main_arg6)))
          (m ((c.tc : Thread nD τ).loc main_arg5)) := by
  unfold Cert.ReferenceIdeal.Value.res_main_v54
  rfl

end Cert.ReferenceIdeal.Chain

end
-- ==== Proof.HostReads.lean ====
/-
  What the two launches find in their operand arrays.

  Before each launch the host computes the launch's operands from the arguments (and, for the second launch, from
  the first launch's result): the mean aggregation, the slice of the target rows and the two transposed weight
  matrices; the bias is an argument itself.  These are the same host operations the reference applies, so each
  operand is stated as the reference's named piece (`Cert.ReferenceIdeal.Chain`) of the arguments.
-/
import proofs.«156704_j55078660603921_1_alg».proof.Proof.Gen.KernelIdeal.Frame
import proofs.«156704_j55078660603921_1_alg».proof.Proof.Chain
import Idealize.ShloMosaic.Lib.StableHlo.Run

set_option maxRecDepth 16384

noncomputable section

namespace Cert.KernelIdeal.HostReads

open Cert.KernelIdeal Cert.KernelIdeal.Gen Idealize.ShloMosaic Idealize.ShloMosaic.TcCoe Idealize.SL.Sem Idealize.ShloMosaic.StableHlo
open Cert.ReferenceIdeal (Chain.agg0 Chain.agg1 Chain.sl0 Chain.sl1 Chain.tr0 Chain.tr1)

variable {F : FTy → Type} [FloatOps F]
variable (m : (ℓ : Loc nD τ sig) → Buf (Elt F) ℓ) (ρ : Dev nD → PrngReg)

/-! ## Region 0's operands, from the arguments

The host computes them in three stretches: the gather, the two scatter-adds and the constants; the edge counts raised
to at least one; the quotient, the slice and the two transposes.  Each stretch is read on its own: what it leaves at
a buffer it writes is its operation applied to what the stretch found, and at any other buffer what the stretch found. -/

/-- The quotient stretch: the mean is the summed rows divided by the (broadcast) raised counts. -/
theorem W3_v17 (c : Dev nD) : W3 m ρ c (Proc.devRef .tc main_v17)
    = Host.divf (W2 m ρ c (Proc.devRef .tc main_v9)) (broadcastInDim S100000x128 ![0, 1] bcast_S100000x1_S100000x128_0_1 (broadcastInDim S100000x1 ![0] bcast_S100000_S100000x1_0 (W2 m ρ c (Proc.devRef .tc main_v14)))) := by
  show StableHlo.after hostOps0_2 (W2 m ρ c) (Proc.devRef .tc main_v17) = _
  generalize W2 m ρ c = w
  after_results
/-- The raising stretch: the counts, raised to at least one. -/
theorem W2_v14 (c : Dev nD) : W2 m ρ c (Proc.devRef .tc main_v14)
    = maximumf (broadcastInDim S100000 ![] bcast_S_S100000 (id (W1 m ρ c (Proc.devRef .tc main_cst_3)))) (W1 m ρ c (Proc.devRef .tc main_v13)) := by
  show StableHlo.after hostOps0_1 (W1 m ρ c) (Proc.devRef .tc main_v14) = _
  generalize W1 m ρ c = w
  after_results
  rfl
/-- The raising stretch leaves the summed rows as they were. -/
theorem W2_v9 (c : Dev nD) : W2 m ρ c (Proc.devRef .tc main_v9) = W1 m ρ c (Proc.devRef .tc main_v9) := by
  show StableHlo.after hostOps0_1 (W1 m ρ c) (Proc.devRef .tc main_v9) = _
  generalize W1 m ρ c = w
  after_results
/-- The first stretch: the constant one. -/
theorem W1_cst_3 (c : Dev nD) : W1 m ρ c (Proc.devRef .tc main_cst_3) = constant S_ .f32 0x3F800000#32 := by
  show StableHlo.after hostOps0 (W0 m ρ c) (Proc.devRef .tc main_cst_3) = _
  generalize W0 m ρ c = w
  after_results
/-- The first stretch: the edge counts, a scatter-add of ones onto the targets. -/
theorem W1_v13 (c : Dev nD) : W1 m ρ c (Proc.devRef .tc main_v13)
    = Host.scatterAdd scatter_S100000_S1600000x1_S1600000_n_0_0_1 (broadcastInDim S100000 ![] bcast_S_S100000 (constant S_ .f32 0x00000000#32)) (broadcastInDim S1600000x1 ![0] bcast_S1600000_S1600000x1_0 (W0 m ρ c (Proc.devRef .tc main_arg8))) (broadcastInDim S1600000 ![] bcast_S_S1600000 (constant S_ .f32 0x3F800000#32)) := by
  show StableHlo.after hostOps0 (W0 m ρ c) (Proc.devRef .tc main_v13) = _
  generalize W0 m ρ c = w
  after_results
/-- The first stretch: the summed rows, a scatter-add onto the targets of the gathered source rows (a negative source
    index counted from the end). -/
theorem W1_v9 (c : Dev nD) : W1 m ρ c (Proc.devRef .tc main_v9)
    = Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (W0 m ρ c (Proc.devRef .tc main_arg8))) (Host.gather gather_S500000x128_S1600000x1_S1600000x128_1_0_n_n_0_1_1128 (W0 m ρ c (Proc.devRef .tc main_arg0)) (broadcastInDim S1600000x1 ![0] bcast_S1600000_S1600000x1_0 (select (cmpi .slt (W0 m ρ c (Proc.devRef .tc main_arg7)) (broadcastInDim S1600000 ![] bcast_S_S1600000 (constantI S_ 32 0#32))) (addi (W0 m ρ c (Proc.devRef .tc main_arg7)) (broadcastInDim S1600000 ![] bcast_S_S1600000 (constantI S_ 32 500000#32))) (W0 m ρ c (Proc.devRef .tc main_arg7))))) := by
  show StableHlo.after hostOps0 (W0 m ρ c) (Proc.devRef .tc main_v9) = _
  generalize W0 m ρ c = w
  after_results

theorem V3_v17 (c : Dev nD) : V3 m ρ c main_v17
    = Chain.agg0 (m ((c : Thread nD τ).loc main_arg0)) (m ((c : Thread nD τ).loc main_arg7)) (m ((c : Thread nD τ).loc main_arg8)) := by
  show W3 m ρ c (Proc.devRef .tc main_v17) = _
  rw [W3_v17, W2_v9, W2_v14, W1_v9, W1_v13, W1_cst_3]
  rfl
theorem V3_v18 (c : Dev nD) : V3 m ρ c main_v18 = Chain.sl0 (m ((c : Thread nD τ).loc main_arg0)) := by
  show StableHlo.after hostOps0_2 _ (Proc.devRef .tc main_v18) = _
  after_results
  rfl
theorem V3_v19 (c : Dev nD) : V3 m ρ c main_v19 = Chain.tr0 (m ((c : Thread nD τ).loc main_arg1)) := by
  show StableHlo.after hostOps0_2 _ (Proc.devRef .tc main_v19) = _
  after_results
  rfl
theorem V3_v20 (c : Dev nD) : V3 m ρ c main_v20 = Chain.tr0 (m ((c : Thread nD τ).loc main_arg3)) := by
  show StableHlo.after hostOps0_2 _ (Proc.devRef .tc main_v20) = _
  after_results
  rfl
theorem V3_arg2 (c : Dev nD) : V3 m ρ c main_arg2 = m ((c : Thread nD τ).loc main_arg2) := by
  show StableHlo.after hostOps0_2 _ (Proc.devRef .tc main_arg2) = _
  after_results

/-! ## Region 1's operands, from the arguments and region 0's result

The same three stretches, one layer up, starting from the contents at region 0's exit: the hidden rows are region 0's
result there, and an argument is still what it was at launch, since neither region 0 nor any host operation writes it. -/

/-- At region 0's exit an argument holds what it held at launch. -/
theorem W4_arg4 (c : Dev nD) : W4 m ρ c (Proc.devRef .tc main_arg4) = m ((c : Thread nD τ).loc main_arg4) := by
  rw [W4_of_ne m ρ c main_arg4 (by decide)]
  show StableHlo.after hostOps0_2 _ (Proc.devRef .tc main_arg4) = _
  after_results
theorem W4_arg5 (c : Dev nD) : W4 m ρ c (Proc.devRef .tc main_arg5) = m ((c : Thread nD τ).loc main_arg5) := by
  rw [W4_of_ne m ρ c main_arg5 (by decide)]
  show StableHlo.after hostOps0_2 _ (Proc.devRef .tc main_arg5) = _
  after_results
theorem W4_arg6 (c : Dev nD) : W4 m ρ c (Proc.devRef .tc main_arg6) = m ((c : Thread nD τ).loc main_arg6) := by
  rw [W4_of_ne m ρ c main_arg6 (by decide)]
  show StableHlo.after hostOps0_2 _ (Proc.devRef .tc main_arg6) = _
  after_results
theorem W4_arg9 (c : Dev nD) : W4 m ρ c (Proc.devRef .tc main_arg9) = m ((c : Thread nD τ).loc main_arg9) := by
  rw [W4_of_ne m ρ c main_arg9 (by decide)]
  show StableHlo.after hostOps0_2 _ (Proc.devRef .tc main_arg9) = _
  after_results
theorem W4_arg10 (c : Dev nD) : W4 m ρ c (Proc.devRef .tc main_arg10) = m ((c : Thread nD τ).loc main_arg10) := by
  rw [W4_of_ne m ρ c main_arg10 (by decide)]
  show StableHlo.after hostOps0_2 _ (Proc.devRef .tc main_arg10) = _
  after_results

/-- The quotient stretch: the mean is the summed rows divided by the (broadcast) raised counts. -/
theorem W7_v39 (c : Dev nD) : W7 m ρ c (Proc.devRef .tc main_v39)
    = Host.divf (W6 m ρ c (Proc.devRef .tc main_v31)) (broadcastInDim S25000x256 ![0, 1] bcast_S25000x1_S25000x256_0_1 (broadcastInDim S25000x1 ![0] bcast_S25000_S25000x1_0 (W6 m ρ c (Proc.devRef .tc main_v36)))) := by
  show StableHlo.after hostOps1_2 (W6 m ρ c) (Proc.devRef .tc main_v39) = _
  generalize W6 m ρ c = w
  after_results
/-- The raising stretch: the counts, raised to at least one. -/
theorem W6_v36 (c : Dev nD) : W6 m ρ c (Proc.devRef .tc main_v36)
    = maximumf (broadcastInDim S25000 ![] bcast_S_S25000 (id (W5 m ρ c (Proc.devRef .tc main_cst_9)))) (W5 m ρ c (Proc.devRef .tc main_v35)) := by
  show StableHlo.after hostOps1_1 (W5 m ρ c) (Proc.devRef .tc main_v36) = _
  generalize W5 m ρ c = w
  after_results
  rfl
/-- The raising stretch leaves the summed rows as they were. -/
theorem W6_v31 (c : Dev nD) : W6 m ρ c (Proc.devRef .tc main_v31) = W5 m ρ c (Proc.devRef .tc main_v31) := by
  show StableHlo.after hostOps1_1 (W5 m ρ c) (Proc.devRef .tc main_v31) = _
  generalize W5 m ρ c = w
  after_results
/-- The first stretch: the constant one. -/
theorem W5_cst_9 (c : Dev nD) : W5 m ρ c (Proc.devRef .tc main_cst_9) = constant S_ .f32 0x3F800000#32 := by
  show StableHlo.after hostOps1 (W4 m ρ c) (Proc.devRef .tc main_cst_9) = _
  generalize W4 m ρ c = w
  after_results
/-- The first stretch: the edge counts, a scatter-add of ones onto the targets. -/
theorem W5_v35 (c : Dev nD) : W5 m ρ c (Proc.devRef .tc main_v35)
    = Host.scatterAdd scatter_S25000_S400000x1_S400000_n_0_0_1 (broadcastInDim S25000 ![] bcast_S_S25000 (constant S_ .f32 0x00000000#32)) (broadcastInDim S400000x1 ![0] bcast_S400000_S400000x1_0 (W4 m ρ c (Proc.devRef .tc main_arg10))) (broadcastInDim S400000 ![] bcast_S_S400000 (constant S_ .f32 0x3F800000#32)) := by
  show StableHlo.after hostOps1 (W4 m ρ c) (Proc.devRef .tc main_v35) = _
  generalize W4 m ρ c = w
  after_results
/-- The first stretch: the summed rows, a scatter-add onto the targets of the gathered hidden rows (a negative source
    index counted from the end). -/
theorem W5_v31 (c : Dev nD) : W5 m ρ c (Proc.devRef .tc main_v31)
    = Host.scatterAdd scatter_S25000x256_S400000x1_S400000x256_1_0_0_1 (broadcastInDim S25000x256 ![] bcast_S_S25000x256 (constant S_ .f32 0x00000000#32)) (broadcastInDim S400000x1 ![0] bcast_S400000_S400000x1_0 (W4 m ρ c (Proc.devRef .tc main_arg10))) (Host.gather gather_S100000x256_S400000x1_S400000x256_1_0_n_n_0_1_1256 (W4 m ρ c (Proc.devRef .tc main_v21)) (broadcastInDim S400000x1 ![0] bcast_S400000_S400000x1_0 (select (cmpi .slt (W4 m ρ c (Proc.devRef .tc main_arg9)) (broadcastInDim S400000 ![] bcast_S_S400000 (constantI S_ 32 0#32))) (addi (W4 m ρ c (Proc.devRef .tc main_arg9)) (broadcastInDim S400000 ![] bcast_S_S400000 (constantI S_ 32 100000#32))) (W4 m ρ c (Proc.devRef .tc main_arg9))))) := by
  show StableHlo.after hostOps1 (W4 m ρ c) (Proc.devRef .tc main_v31) = _
  generalize W4 m ρ c = w
  after_results
/-- The slice of the hidden rows, of the contents at region 0's exit. -/
theorem W7_v40 (c : Dev nD) : W7 m ρ c (Proc.devRef .tc main_v40)
    = extractStridedSlice S25000x256 ![0, 0] (W4 m ρ c (Proc.devRef .tc main_v21)) slices_S100000x256_S25000x256_0_0 := by
  show StableHlo.after hostOps1_2 _ (Proc.devRef .tc main_v40) = _
  after_results
/-- The transposed weight matrices, of the contents at region 0's exit. -/
theorem W7_v41 (c : Dev nD) : W7 m ρ c (Proc.devRef .tc main_v41)
    = transpose S256x128 [1, 0] (W4 m ρ c (Proc.devRef .tc main_arg4)) transposes_S128x256_S256x128_1_0 := by
  show StableHlo.after hostOps1_2 _ (Proc.devRef .tc main_v41) = _
  after_results
theorem W7_v42 (c : Dev nD) : W7 m ρ c (Proc.devRef .tc main_v42)
    = transpose S256x128 [1, 0] (W4 m ρ c (Proc.devRef .tc main_arg6)) transposes_S128x256_S256x128_1_0 := by
  show StableHlo.after hostOps1_2 _ (Proc.devRef .tc main_v42) = _
  after_results
/-- No host operation after region 0 writes the bias. -/
theorem W7_arg5 (c : Dev nD) : W7 m ρ c (Proc.devRef .tc main_arg5) = W4 m ρ c (Proc.devRef .tc main_arg5) := by
  show StableHlo.after hostOps1_2 _ (Proc.devRef .tc main_arg5) = _
  after_results

theorem V7_v39 (c : Dev nD) : V7 m ρ c main_v39
    = Chain.agg1 (V4 m ρ c main_v21) (m ((c : Thread nD τ).loc main_arg9)) (m ((c : Thread nD τ).loc main_arg10)) := by
  show W7 m ρ c (Proc.devRef .tc main_v39) = _
  rw [W7_v39, W6_v31, W6_v36, W5_v31, W5_v35, W5_cst_9, W4_arg9, W4_arg10]
  rfl
theorem V7_v40 (c : Dev nD) : V7 m ρ c main_v40 = Chain.sl1 (V4 m ρ c main_v21) := by
  show W7 m ρ c (Proc.devRef .tc main_v40) = _
  rw [W7_v40]
  rfl
theorem V7_v41 (c : Dev nD) : V7 m ρ c main_v41 = Chain.tr1 (m ((c : Thread nD τ).loc main_arg4)) := by
  show W7 m ρ c (Proc.devRef .tc main_v41) = _
  rw [W7_v41, W4_arg4]
  rfl
theorem V7_v42 (c : Dev nD) : V7 m ρ c main_v42 = Chain.tr1 (m ((c : Thread nD τ).loc main_arg6)) := by
  show W7 m ρ c (Proc.devRef .tc main_v42) = _
  rw [W7_v42, W4_arg6]
  rfl
theorem V7_arg5 (c : Dev nD) : V7 m ρ c main_arg5 = m ((c : Thread nD τ).loc main_arg5) := by
  show W7 m ρ c (Proc.devRef .tc main_arg5) = _
  rw [W7_arg5, W4_arg5]

end Cert.KernelIdeal.HostReads

end
-- ==== Proof.RefLin.lean ====
/-
  The reference's linear part is the specification's layer, index by index.

  At the exact values a host dot product read at entry (r, q) is the plain sum ∑ₖ L[r,k] · R[k,q] over the one
  contracted axis, and the bias broadcast along the rows reads b[q] at every row.  So the reference's layer is
  (∑ₖ A[r,k]·Wl[k,q] + b[q]) + ∑ₖ X[r,k]·Wr[k,q], which differs from the specification's
  (∑ₖ A[r,k]·Wl[k,q] + ∑ₖ X[r,k]·Wr[k,q]) + b[q] only in where the bias is added: one use of commutativity and
  associativity of addition on the extended reals, which holds at the infinities too.
-/
import proofs.«156704_j55078660603921_1_alg».proof.Proof.Chain
import proofs.«156704_j55078660603921_1_alg».proof.Proof.Spec
import proofs.«156704_j55078660603921_1_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefLin

open Cert.ReferenceIdeal Cert.ReferenceIdeal.Gen Cert.ReferenceIdeal.Read Idealize.ShloMosaic Idealize.ShloMosaic.TcCoe
open Idealize.ShloMosaic.ValueIdx

/-! ## Layer 0: [100000, 128] × [128, 256] -/

/-- The host product of layer 0 at entry (r, q): the sum over the 128 input features. -/
theorem dot0_apply (L : FVec Ideal S100000x128 .f32) (R : FVec Ideal S128x256 .f32)
    (r : Fin 100000) (q : Fin 256) :
    Host.dotGeneral (F := Ideal) dot_S100000x128_S128x256_S100000x256_1_0_0_1_n_n none L R (ix2 r q) = ∑ k : Fin 128, L (ix2 r k) * R (ix2 k q) := by
  simp only [Host.dotGeneral]
  rw [Ideal.dotGeneral_apply, ← Equiv.sum_comp (ValueIdx.contrEquiv1 dot_S100000x128_S128x256_S100000x256_1_0_0_1_n_n 128 rfl rfl).symm]
  refine Finset.sum_congr rfl fun k _ => ?_
  have hk := ValueIdx.contrEquiv1_symm_val dot_S100000x128_S128x256_S100000x256_1_0_0_1_n_n 128 rfl rfl k
  have el : dot_S100000x128_S128x256_S100000x256_1_0_0_1_n_n.lhsIdx (ix2 r q) ((ValueIdx.contrEquiv1 dot_S100000x128_S128x256_S100000x256_1_0_0_1_n_n 128 rfl rfl).symm k) = ix2 r k := funext fun a => Fin.ext (by
    match a with
    | ⟨0, _⟩ => exact lhs_main_v20_0 _ _
    | ⟨1, _⟩ => exact (lhs_main_v20_1 _ _).trans hk)
  have er : dot_S100000x128_S128x256_S100000x256_1_0_0_1_n_n.rhsIdx (ix2 r q) ((ValueIdx.contrEquiv1 dot_S100000x128_S128x256_S100000x256_1_0_0_1_n_n 128 rfl rfl).symm k) = ix2 k q := funext fun a => Fin.ext (by
    match a with
    | ⟨0, _⟩ => exact (rhs_main_v20_0 _ _).trans hk
    | ⟨1, _⟩ => exact rhs_main_v20_1 _ _)
  rw [el, er]

/-- The bias of layer 0, broadcast along the rows, reads b[q] at every row. -/
theorem bias0_apply (b : (⟨S256, .f32⟩ : BufTy).Contents (Elt Ideal)) (r : Fin 100000) (q : Fin 256) :
    broadcastInDim S100000x256 ![0, 1] bcast_S1x256_S100000x256_0_1 (broadcastInDim S1x256 ![1] bcast_S256_S1x256_1 b) (ix2 r q) = b (ix1 q) := by
  rw [broadcastInDim_apply _ bcast_S1x256_S100000x256_0_1 _ (ix2 r q) (ix2 (0 : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])]
  exact broadcastInDim_apply _ bcast_S256_S1x256_1 b (ix2 (0 : Fin 1) q) (ix1 q) (fun a => match a with
    | ⟨0, _⟩ => by show q.val = if (256 : Nat) = 1 then 0 else q.val; rw [if_neg (by decide)])

/-- The reference's hidden layer is the specification's. -/
theorem lin0_eq (A X : (⟨S100000x128, .f32⟩ : BufTy).Contents (Elt Ideal)) (Wl Wr : (⟨S128x256, .f32⟩ : BufTy).Contents (Elt Ideal))
    (b : (⟨S256, .f32⟩ : BufTy).Contents (Elt Ideal)) :
    Chain.lin0 (F := Ideal) A X Wl Wr b = Cert.Sage.combRelu 100000 128 256 A X Wl Wr b := by
  funext i
  obtain ⟨r, q, rfl⟩ : ∃ (r : Fin 100000) (q : Fin 256), i = ix2 r q := ⟨i 0, i 1, eq_ix2 i⟩
  rw [Cert.Sage.combRelu_apply]
  unfold Chain.lin0
  rw [maximumf_apply, addf_apply, addf_apply, dot0_apply, dot0_apply, bias0_apply]
  rw [Cert.Sage.add_bias_comm]
  rfl

/-! ## Layer 1: [25000, 256] × [256, 128] -/

/-- The host product of layer 1 at entry (r, q): the sum over the 256 hidden features. -/
theorem dot1_apply (L : FVec Ideal S25000x256 .f32) (R : FVec Ideal S256x128 .f32)
    (r : Fin 25000) (q : Fin 128) :
    Host.dotGeneral (F := Ideal) dot_S25000x256_S256x128_S25000x128_1_0_0_1_n_n none L R (ix2 r q) = ∑ k : Fin 256, L (ix2 r k) * R (ix2 k q) := by
  simp only [Host.dotGeneral]
  rw [Ideal.dotGeneral_apply, ← Equiv.sum_comp (ValueIdx.contrEquiv1 dot_S25000x256_S256x128_S25000x128_1_0_0_1_n_n 256 rfl rfl).symm]
  refine Finset.sum_congr rfl fun k _ => ?_
  have hk := ValueIdx.contrEquiv1_symm_val dot_S25000x256_S256x128_S25000x128_1_0_0_1_n_n 256 rfl rfl k
  have el : dot_S25000x256_S256x128_S25000x128_1_0_0_1_n_n.lhsIdx (ix2 r q) ((ValueIdx.contrEquiv1 dot_S25000x256_S256x128_S25000x128_1_0_0_1_n_n 256 rfl rfl).symm k) = ix2 r k := funext fun a => Fin.ext (by
    match a with
    | ⟨0, _⟩ => exact lhs_main_v48_0 _ _
    | ⟨1, _⟩ => exact (lhs_main_v48_1 _ _).trans hk)
  have er : dot_S25000x256_S256x128_S25000x128_1_0_0_1_n_n.rhsIdx (ix2 r q) ((ValueIdx.contrEquiv1 dot_S25000x256_S256x128_S25000x128_1_0_0_1_n_n 256 rfl rfl).symm k) = ix2 k q := funext fun a => Fin.ext (by
    match a with
    | ⟨0, _⟩ => exact (rhs_main_v48_0 _ _).trans hk
    | ⟨1, _⟩ => exact rhs_main_v48_1 _ _)
  rw [el, er]

/-- The bias of layer 1, broadcast along the rows, reads b[q] at every row. -/
theorem bias1_apply (b : (⟨S128, .f32⟩ : BufTy).Contents (Elt Ideal)) (r : Fin 25000) (q : Fin 128) :
    broadcastInDim S25000x128 ![0, 1] bcast_S1x128_S25000x128_0_1 (broadcastInDim S1x128 ![1] bcast_S128_S1x128_1 b) (ix2 r q) = b (ix1 q) := by
  rw [broadcastInDim_apply _ bcast_S1x128_S25000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The reference's output layer is the specification's. -/
theorem lin1_eq (A X : (⟨S25000x256, .f32⟩ : BufTy).Contents (Elt Ideal)) (Wl Wr : (⟨S256x128, .f32⟩ : BufTy).Contents (Elt Ideal))
    (b : (⟨S128, .f32⟩ : BufTy).Contents (Elt Ideal)) :
    Chain.lin1 (F := Ideal) A X Wl Wr b = Cert.Sage.comb 25000 256 128 A X Wl Wr b := by
  funext i
  obtain ⟨r, q, rfl⟩ : ∃ (r : Fin 25000) (q : Fin 128), i = ix2 r q := ⟨i 0, i 1, eq_ix2 i⟩
  rw [Cert.Sage.comb_apply]
  unfold Chain.lin1
  rw [addf_apply, addf_apply, dot1_apply, dot1_apply, bias1_apply]
  exact Cert.Sage.add_bias_comm _ _ _

end Cert.ReferenceIdeal.RefLin

end
-- ==== Proof.KernelValue.lean ====
/-
  The kernel's result as the reference's own expression of the arguments.

  Region 0 finds in its operand arrays the mean aggregation of the input rows, the first 100000 input rows and the
  two transposed weight matrices; its fifty blocks leave the specification's hidden layer of those, which is the
  reference's hidden layer (the bias added in another place).  Region 1 finds the mean aggregation of those hidden
  rows, their first 25000 rows and the second pair of transposed matrices; its five blocks leave the specification's
  output layer, which is the reference's.  The aggregation is the same host function on both sides and is never opened.
-/
import proofs.«156704_j55078660603921_1_alg».proof.Proof.Region0
import proofs.«156704_j55078660603921_1_alg».proof.Proof.Region1
import proofs.«156704_j55078660603921_1_alg».proof.Proof.HostReads
import proofs.«156704_j55078660603921_1_alg».proof.Proof.RefLin

set_option maxRecDepth 16384

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What region 0 leaves in its result array, which is what region 1's host operations read: the reference's hidden
    layer of the arguments. -/
theorem hidden_eq (c : Dev nD) :
    V4 m ρ c main_v21
      = (Cert.ReferenceIdeal.Chain.lin0 (F := Ideal) (Cert.ReferenceIdeal.Chain.agg0 (m ((c : Thread nD τ).loc main_arg0)) (m ((c : Thread nD τ).loc main_arg7)) (m ((c : Thread nD τ).loc main_arg8)))
        (Cert.ReferenceIdeal.Chain.sl0 (m ((c : Thread nD τ).loc main_arg0))) (Cert.ReferenceIdeal.Chain.tr0 (m ((c : Thread nD τ).loc main_arg1))) (Cert.ReferenceIdeal.Chain.tr0 (m ((c : Thread nD τ).loc main_arg3))) (m ((c : Thread nD τ).loc main_arg2))) := by
  show W4 m ρ c (Proc.devRef .tc (Pipeline.arrRef spec0 5)) = _
  rw [W4_arr, Cert.KernelIdeal.Region0.final0, Cert.KernelIdeal.HostReads.V3_v17, Cert.KernelIdeal.HostReads.V3_v18,
    Cert.KernelIdeal.HostReads.V3_v19, Cert.KernelIdeal.HostReads.V3_v20, Cert.KernelIdeal.HostReads.V3_arg2,
    Cert.ReferenceIdeal.RefLin.lin0_eq]

/-- What region 1 leaves in the result array: the reference's output layer of the hidden rows and the arguments. -/
theorem value_eq (c : Dev nD) :
    (dat1 (F := Ideal) (V7 m ρ) c).arrAt 5 cfg1.N
      = Cert.ReferenceIdeal.Chain.lin1 (F := Ideal)
          (Cert.ReferenceIdeal.Chain.agg1 (Cert.ReferenceIdeal.Chain.lin0 (F := Ideal) (Cert.ReferenceIdeal.Chain.agg0 (m ((c : Thread nD τ).loc main_arg0)) (m ((c : Thread nD τ).loc main_arg7)) (m ((c : Thread nD τ).loc main_arg8)))
        (Cert.ReferenceIdeal.Chain.sl0 (m ((c : Thread nD τ).loc main_arg0))) (Cert.ReferenceIdeal.Chain.tr0 (m ((c : Thread nD τ).loc main_arg1))) (Cert.ReferenceIdeal.Chain.tr0 (m ((c : Thread nD τ).loc main_arg3))) (m ((c : Thread nD τ).loc main_arg2))) (m ((c : Thread nD τ).loc main_arg9)) (m ((c : Thread nD τ).loc main_arg10)))
          (Cert.ReferenceIdeal.Chain.sl1 (Cert.ReferenceIdeal.Chain.lin0 (F := Ideal) (Cert.ReferenceIdeal.Chain.agg0 (m ((c : Thread nD τ).loc main_arg0)) (m ((c : Thread nD τ).loc main_arg7)) (m ((c : Thread nD τ).loc main_arg8)))
        (Cert.ReferenceIdeal.Chain.sl0 (m ((c : Thread nD τ).loc main_arg0))) (Cert.ReferenceIdeal.Chain.tr0 (m ((c : Thread nD τ).loc main_arg1))) (Cert.ReferenceIdeal.Chain.tr0 (m ((c : Thread nD τ).loc main_arg3))) (m ((c : Thread nD τ).loc main_arg2))))
          (Cert.ReferenceIdeal.Chain.tr1 (m ((c : Thread nD τ).loc main_arg4))) (Cert.ReferenceIdeal.Chain.tr1 (m ((c : Thread nD τ).loc main_arg6))) (m ((c : Thread nD τ).loc main_arg5)) := by
  rw [Cert.KernelIdeal.Region1.final1, Cert.KernelIdeal.HostReads.V7_v39, Cert.KernelIdeal.HostReads.V7_v40,
    Cert.KernelIdeal.HostReads.V7_v41, Cert.KernelIdeal.HostReads.V7_v42, Cert.KernelIdeal.HostReads.V7_arg5,
    hidden_eq, Cert.ReferenceIdeal.RefLin.lin1_eq]

end Cert.KernelIdeal.KernelValue

end
-- ==== Proof.lean ====
/-
  A two-layer GraphSAGE network, computed by a kernel program of two launches and by a plain reference, give equal
  results over the extended reals.

  Each layer averages, for every target node, the feature rows of the source nodes on its incoming edges, and then
  applies a linear map to that average, another to the target's own row, and adds a bias; the first layer is followed
  by the positive part.  The averaging is done by the same host operations in both programs.  The linear part is
  where they differ: the reference forms two whole-array dot products and adds the bias between them,
  (A·Wl + b) + X·Wr, while each launch of the kernel walks the rows in blocks and computes (A·Wl + X·Wr) + b on a
  block with two products into a zero accumulator.  A row of the result depends on the same row of A and of X only, so
  the blocks assemble to one whole-array function; the products are the same sums over the contracted axis; and the
  two placements of the bias agree because addition on the extended reals is commutative and associative, at the
  infinities too.  No finiteness of the inputs is used: the precondition is not opened.

  The three frames are the generated ones (the reference's is its generated run with the result dropped); the
  idealization rewrote no operation, so that claim is `True`.
-/
import proofs.«156704_j55078660603921_1_alg».proof.Defs
import proofs.«156704_j55078660603921_1_alg».proof.Proof.Gen.Kernel
import proofs.«156704_j55078660603921_1_alg».proof.Proof.Gen.Kernel.Skeleton
import proofs.«156704_j55078660603921_1_alg».proof.Proof.Gen.Kernel.Launch
import proofs.«156704_j55078660603921_1_alg».proof.Proof.Gen.Kernel.Points
import proofs.«156704_j55078660603921_1_alg».proof.Proof.Gen.Kernel.Frame
import proofs.«156704_j55078660603921_1_alg».proof.Proof.Gen.KernelIdeal
import proofs.«156704_j55078660603921_1_alg».proof.Proof.Gen.KernelIdeal.Skeleton
import proofs.«156704_j55078660603921_1_alg».proof.Proof.Gen.KernelIdeal.Launch
import proofs.«156704_j55078660603921_1_alg».proof.Proof.Gen.KernelIdeal.Points
import proofs.«156704_j55078660603921_1_alg».proof.Proof.Gen.KernelIdeal.Frame
import proofs.«156704_j55078660603921_1_alg».proof.Proof.Gen.ReferenceIdeal
import proofs.«156704_j55078660603921_1_alg».proof.Proof.Gen.ReferenceIdeal.Run
import proofs.«156704_j55078660603921_1_alg».proof.Proof.Gen.ReferenceIdeal.Read
import proofs.«156704_j55078660603921_1_alg».proof.Proof.Gen.Pre_finite_inputs
import proofs.«156704_j55078660603921_1_alg».proof.Proof.NamedRun
import proofs.«156704_j55078660603921_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the output layer of the hidden rows: the kernel's result array is what its second
    launch's write-backs leave, which is the reference's expression of the arguments (`KernelValue.value_eq`); the
    reference's run ends at that expression of its own arguments, which agree with the kernel's. -/
theorem algebraic : Cert.algebraic_KernelIdeal_ReferenceIdeal := by
  intro m ρ m' ρ' _ hagree
  refine ⟨fun c => (Cert.KernelIdeal.Gen.dat1 (F := Ideal) (Cert.KernelIdeal.Gen.V7 m ρ) c).arrAt 5 Cert.KernelIdeal.cfg1.N,
    Cert.KernelIdeal.NamedRun.run_named (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8, h9, h10⟩ := hagree c
  rw [Cert.ReferenceIdeal.Chain.res_eq]
  unfold Cert.ReferenceIdeal.Chain.hid
  rw [h0, h1, h2, h3, h4, h5, h6, h7, h8, h9, h10]
  exact (Cert.KernelIdeal.KernelValue.value_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
